-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x197x1024 : Shape := ⟨3, ![8, 197, 1024]⟩
abbrev S4096x1024 : Shape := ⟨2, ![4096, 1024]⟩
abbrev S4096x1 : Shape := ⟨2, ![4096, 1]⟩
abbrev S16x1024 : Shape := ⟨2, ![16, 1024]⟩
abbrev S4096x16 : Shape := ⟨2, ![4096, 16]⟩
abbrev S4096 : Shape := ⟨1, ![4096]⟩
abbrev S_ : Shape := ⟨0, ![]⟩

class Facts : Prop where
  bcast_S_S8x197x1024 : S_.BroadcastsInDim S8x197x1024 (![] : Fin 0 → Fin S8x197x1024.rank)
  reducesTo_S8x197x1024_S_d0_1_2 : S8x197x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x1 : S_.BroadcastsInDim S4096x1 (![] : Fin 0 → Fin S4096x1.rank)
  reducesTo_S4096x1_S_d0_1 : S4096x1.ReducesTo [0, 1] S_
  bcast_S_S16x1024 : S_.BroadcastsInDim S16x1024 (![] : Fin 0 → Fin S16x1024.rank)
  reducesTo_S16x1024_S_d0_1 : S16x1024.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x16 .f32) (main_arg5 : FVec F S4096 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8x197x1024 .f32) (main_arg1 : FVec F S4096x1024 .f32) (main_arg2 : FVec F S4096x1 .f32) (main_arg3 : FVec F S16x1024 .f32) (main_arg4 : FVec F S4096x16 .f32) (main_arg5 : FVec F S4096 .f32) : IVec S_ 1 :=
  let main_v0 : FVec F S8x197x1024 .f32 := Host.absf main_arg0
  let main_cst : FVec F S_ .f32 := constant S_ .f32 0x7F800000#32
  let main_v1 : FVec F S8x197x1024 .f32 := broadcastInDim S8x197x1024 ![] bcast_S_S8x197x1024 main_cst
  let main_v2 : IVec S8x197x1024 1 := cmpf .olt main_v0 main_v1
  let main_c : IVec S_ 1 := constantI S_ 1 1#1
  let main_v3 : IVec S_ 1 := (fun x v => Host.reduce IntOp.andi x v reducesTo_S8x197x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_v13 main_v16
-- ==== Kernel.lean ====
abbrev S8x197x1024 : Shape := ⟨3, ![8, 197, 1024]⟩
abbrev S4096x1024 : Shape := ⟨2, ![4096, 1024]⟩
abbrev S4096x1 : Shape := ⟨2, ![4096, 1]⟩
abbrev S16x1024 : Shape := ⟨2, ![16, 1024]⟩
abbrev S4096x16 : Shape := ⟨2, ![4096, 16]⟩
abbrev S4096 : Shape := ⟨1, ![4096]⟩
abbrev S1576x1024 : Shape := ⟨2, ![1576, 1024]⟩
abbrev S1024x1024 : Shape := ⟨2, ![1024, 1024]⟩
abbrev S1024x1 : Shape := ⟨2, ![1024, 1]⟩
abbrev S1024x16 : Shape := ⟨2, ![1024, 16]⟩
abbrev S1x4096 : Shape := ⟨2, ![1, 4096]⟩
abbrev S1576x4096 : Shape := ⟨2, ![1576, 4096]⟩
abbrev S1x1024 : Shape := ⟨2, ![1, 1024]⟩
abbrev S8x197x4096 : Shape := ⟨3, ![8, 197, 4096]⟩

abbrev nBuf : Space → Nat
  | .hbm => 11
  | .vmem => 16
  | .smem => 0
  | _ => 0

abbrev bufTy : (tb : Table) → Fin (tcTables nBuf tb) → BufTy
  | .hbm, ⟨0, _⟩ => ⟨S8x197x1024, .f32⟩
  | .hbm, ⟨1, _⟩ => ⟨S4096x1024, .f32⟩
  | .hbm, ⟨2, _⟩ => ⟨S4096x1, .f32⟩
  | .hbm, ⟨3, _⟩ => ⟨S16x1024, .f32⟩
  | .hbm, ⟨4, _⟩ => ⟨S4096x16, .f32⟩
  | .hbm, ⟨5, _⟩ => ⟨S4096, .f32⟩
  | .hbm, ⟨6, _⟩ => ⟨S1576x1024, .f32⟩
  | .hbm, ⟨7, _⟩ => ⟨S4096x1024, .bf16⟩
  | .hbm, ⟨8, _⟩ => ⟨S1x4096, .f32⟩
  | .hbm, ⟨9, _⟩ => ⟨S1576x4096, .f32⟩
  | .hbm, ⟨10, _⟩ => ⟨S8x197x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S16x1024, .f32⟩
  | .local _ .vmem, ⟨5, _⟩ => ⟨S1024x16, .f32⟩
  | .local _ .vmem, ⟨6, _⟩ => ⟨S1024x16, .f32⟩
  | .local _ .vmem, ⟨7, _⟩ => ⟨S1024x1024, .bf16⟩
  | .local _ .vmem, ⟨8, _⟩ => ⟨S1024x1024, .bf16⟩
  | .local _ .vmem, ⟨9, _⟩ => ⟨S1576x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1576x1024, .f32⟩
  | .local _ .vmem, ⟨15, _⟩ => ⟨S1576x1024, .f32⟩
  | _, _ => ⟨S8x197x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1576x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1576x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8x197x1024_S1576x1024 : S8x197x1024.ShapeCasts S1576x1024
  inb_S1024x16_S1024x16_0_0 : ∀ a, (![0, 0] : Fin 2 → Nat) a + S1024x16.size a ≤ S1024x16.size a
  h_S1024x16 : 0 < S1024x16.numel
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S4096_S1x4096 : S4096.ShapeCasts S1x4096
  inb_S1576x1024_S1576x1024_0_0 : ∀ a, (![0, 0] : Fin 2 → Nat) a + S1576x1024.size a ≤ S1576x1024.size a
  h_S1576x1024 : 0 < S1576x1024.numel
  shapeCasts_S1576x1024_S1576x1024 : S1576x1024.ShapeCasts S1576x1024
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1576x1024 : S1x1024.Broadcasts S1576x1024
  shapeCasts_S1576x4096_S8x197x4096 : S1576x4096.ShapeCasts S8x197x4096
  dot_S1024x16_S16x1024_S1024x1024_1_0_0_1_n_n_wf : DotDims.WF S1024x16 S16x1024 S1024x1024 [1] [0] [0] [1] [] []
  dot_S1576x1024_S1024x1024_S1576x1024_1_1_0_0_n_n_wf : DotDims.WF S1576x1024 S1024x1024 S1576x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .f32 = 32 ∨ (Rect.block (s := S4096x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x1024.size a
  hwx0_2 : ∀ i : grid0.Coords, EltTy.bits .f32 = 32 ∨ (Rect.block (s := S16x1024) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x1024.size a
  hwx0_4 : ∀ i : grid0.Coords, EltTy.bits .bf16 = 32 ∨ (Rect.block (s := S4096x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1576x1024.size a ≤ S1576x1024.size a
  hwx1_0 : ∀ i : grid1.Coords, EltTy.bits .f32 = 32 ∨ (Rect.block (s := S1576x1024) S1576x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1576x1024.size a ≤ S1576x4096.size a
  hwx1_3 : ∀ i : grid1.Coords, EltTy.bits .f32 = 32 ∨ (Rect.block (s := S1576x4096) S1576x1024.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1576x1024_S1024x1024_S1576x1024_1_1_0_0_n_n : DotDims S1576x1024 S1024x1024 S1576x1024 where
  lhsContracting := [1]
  rhsContracting := [1]
  lhsNonContracting := [0]
  rhsNonContracting := [0]
  lhsBatch := []
  rhsBatch := []
  wf := dot_S1576x1024_S1024x1024_S1576x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S1576x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1576x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x197x1024 : Shape := ⟨3, ![8, 197, 1024]⟩
abbrev S4096x1024 : Shape := ⟨2, ![4096, 1024]⟩
abbrev S4096x1 : Shape := ⟨2, ![4096, 1]⟩
abbrev S16x1024 : Shape := ⟨2, ![16, 1024]⟩
abbrev S4096x16 : Shape := ⟨2, ![4096, 16]⟩
abbrev S4096 : Shape := ⟨1, ![4096]⟩
abbrev S_ : Shape := ⟨0, ![]⟩
abbrev S8x197x4096 : Shape := ⟨3, ![8, 197, 4096]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8x197x1024, .f32⟩
  | .hbm, ⟨1, _⟩ => ⟨S4096x1024, .f32⟩
  | .hbm, ⟨2, _⟩ => ⟨S4096x1, .f32⟩
  | .hbm, ⟨3, _⟩ => ⟨S16x1024, .f32⟩
  | .hbm, ⟨4, _⟩ => ⟨S4096x16, .f32⟩
  | .hbm, ⟨5, _⟩ => ⟨S4096, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S8x197x4096, .f32⟩
  | .hbm, ⟨14, _⟩ => ⟨S1x1x4096, .f32⟩
  | .hbm, ⟨15, _⟩ => ⟨S8x197x4096, .f32⟩
  | .hbm, ⟨16, _⟩ => ⟨S8x197x4096, .f32⟩
  | _, _ => ⟨S8x197x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S4096x1_S4096x1024_0_1 : S4096x1.BroadcastsInDim S4096x1024 (![0, 1] : Fin 2 → Fin S4096x1024.rank)
  bcast_S4096_S1x1x4096_2 : S4096.BroadcastsInDim S1x1x4096 (![2] : Fin 1 → Fin S1x1x4096.rank)
  bcast_S1x1x4096_S8x197x4096_0_1_2 : S1x1x4096.BroadcastsInDim S8x197x4096 (![0, 1, 2] : Fin 3 → Fin S8x197x4096.rank)
  dot_S4096x16_S16x1024_S4096x1024_1_0_0_1_n_n_wf : DotDims.WF S4096x16 S16x1024 S4096x1024 [1] [0] [0] [1] [] []
  dot_S8x197x1024_S4096x1024_S8x197x4096_2_1_01_0_n_n_wf : DotDims.WF S8x197x1024 S4096x1024 S8x197x4096 [2] [1] [0, 1] [0] [] []

variable [Facts₀]

def dot_S4096x16_S16x1024_S4096x1024_1_0_0_1_n_n : DotDims S4096x16 S16x1024 S4096x1024 where
  lhsContracting := [1]
  rhsContracting := [0]
  lhsNonContracting := [0]
  rhsNonContracting := [1]
  lhsBatch := []
  rhsBatch := []
  wf := dot_S4096x16_S16x1024_S4096x1024_1_0_0_1_n_n_wf
def dot_S8x197x1024_S4096x1024_S8x197x4096_2_1_01_0_n_n : DotDims S8x197x1024 S4096x1024 S8x197x4096 where
  lhsContracting := [2]
  rhsContracting := [1]
  lhsNonContracting := [0, 1]
  rhsNonContracting := [0]
  lhsBatch := []
  rhsBatch := []
  wf := dot_S8x197x1024_S4096x1024_S8x197x4096_2_1_01_0_n_n_wf

class Facts : Prop extends Facts₀ where

variable [Facts]
-- ==== Proof.Spec.lean ====
/-
  The two kernels and the reference all compute one function of the six argument arrays, read here index by
  index over the extended reals.

  The adapted weight: row o, column i of  (directions + (B · A) · scale) · magnitude, the rank-16 product a plain
  sum over k, the magnitude one number per row.  The linear layer over a flattened batch: row r, column o of
  x₂ · Wᵀ + bias, a plain sum over the 1024 input features.  The result: the same with the batch as (b, s).
-/
import Idealize.ShloMosaic.PureOps.Ideal
import Idealize.ShloMosaic.Lib.ValueIdx

noncomputable section

namespace Cert.Dora

open Idealize.ShloMosaic Idealize.ShloMosaic.ValueIdx

/-- The low-rank correction's scale: the f32 word both programs print, read once. -/
abbrev scale : EReal := Ideal.ofBits .f32 0x3F4CCCCD#32

/-- The adapted weight at row `o`, column `i`. -/
def adaptedAt (wd : (⟨2, ![4096, 1024]⟩ : Shape).Idx → EReal) (mag : (⟨2, ![4096, 1]⟩ : Shape).Idx → EReal)
    (a : (⟨2, ![16, 1024]⟩ : Shape).Idx → EReal) (b : (⟨2, ![4096, 16]⟩ : Shape).Idx → EReal)
    (o : Fin 4096) (i : Fin 1024) : EReal :=
  (wd (ix2 o i) + (∑ k : Fin 16, b (ix2 o k) * a (ix2 k i)) * scale) * mag (ix2 o (0 : Fin 1))

/-- The adapted weight as an array. -/
def adapted (wd : (⟨2, ![4096, 1024]⟩ : Shape).Idx → EReal) (mag : (⟨2, ![4096, 1]⟩ : Shape).Idx → EReal)
    (a : (⟨2, ![16, 1024]⟩ : Shape).Idx → EReal) (b : (⟨2, ![4096, 16]⟩ : Shape).Idx → EReal) :
    (⟨2, ![4096, 1024]⟩ : Shape).Idx → EReal :=
  fun j => adaptedAt wd mag a b ⟨(j 0).val, (j 0).isLt⟩ ⟨(j 1).val, (j 1).isLt⟩

theorem adapted_ix2 (wd : (⟨2, ![4096, 1024]⟩ : Shape).Idx → EReal) (mag : (⟨2, ![4096, 1]⟩ : Shape).Idx → EReal)
    (a : (⟨2, ![16, 1024]⟩ : Shape).Idx → EReal) (b : (⟨2, ![4096, 16]⟩ : Shape).Idx → EReal) (o : Fin 4096) (i : Fin 1024) :
    adapted wd mag a b (ix2 o i) = adaptedAt wd mag a b o i := rfl

/-- The linear layer over the flattened batch at row `r`, output feature `o`: the weight is read transposed. -/
def linearAt (x2 : (⟨2, ![1576, 1024]⟩ : Shape).Idx → EReal) (w : (⟨2, ![4096, 1024]⟩ : Shape).Idx → EReal)
    (b2 : (⟨2, ![1, 4096]⟩ : Shape).Idx → EReal) (r : Fin 1576) (o : Fin 4096) : EReal :=
  (∑ k : Fin 1024, x2 (ix2 r k) * w (ix2 o k)) + b2 (ix2 (0 : Fin 1) o)

/-- The linear layer over the flattened batch as an array. -/
def linear (x2 : (⟨2, ![1576, 1024]⟩ : Shape).Idx → EReal) (w : (⟨2, ![4096, 1024]⟩ : Shape).Idx → EReal)
    (b2 : (⟨2, ![1, 4096]⟩ : Shape).Idx → EReal) : (⟨2, ![1576, 4096]⟩ : Shape).Idx → EReal :=
  fun j => linearAt x2 w b2 ⟨(j 0).val, (j 0).isLt⟩ ⟨(j 1).val, (j 1).isLt⟩

theorem linear_ix2 (x2 : (⟨2, ![1576, 1024]⟩ : Shape).Idx → EReal) (w : (⟨2, ![4096, 1024]⟩ : Shape).Idx → EReal)
    (b2 : (⟨2, ![1, 4096]⟩ : Shape).Idx → EReal) (r : Fin 1576) (o : Fin 4096) :
    linear x2 w b2 (ix2 r o) = linearAt x2 w b2 r o := rfl

/-- The result at batch `b`, position `s`, output feature `o`. -/
def resultAt (x : (⟨3, ![8, 197, 1024]⟩ : Shape).Idx → EReal) (wd : (⟨2, ![4096, 1024]⟩ : Shape).Idx → EReal)
    (mag : (⟨2, ![4096, 1]⟩ : Shape).Idx → EReal) (a : (⟨2, ![16, 1024]⟩ : Shape).Idx → EReal)
    (b : (⟨2, ![4096, 16]⟩ : Shape).Idx → EReal) (bias : (⟨1, ![4096]⟩ : Shape).Idx → EReal)
    (n : Fin 8) (s : Fin 197) (o : Fin 4096) : EReal :=
  (∑ k : Fin 1024, x (ix3 n s k) * adaptedAt wd mag a b o k) + bias (ix1 o)

/-- The result as an array. -/
def result (x : (⟨3, ![8, 197, 1024]⟩ : Shape).Idx → EReal) (wd : (⟨2, ![4096, 1024]⟩ : Shape).Idx → EReal)
    (mag : (⟨2, ![4096, 1]⟩ : Shape).Idx → EReal) (a : (⟨2, ![16, 1024]⟩ : Shape).Idx → EReal)
    (b : (⟨2, ![4096, 16]⟩ : Shape).Idx → EReal) (bias : (⟨1, ![4096]⟩ : Shape).Idx → EReal) :
    (⟨3, ![8, 197, 4096]⟩ : Shape).Idx → EReal :=
  fun j => resultAt x wd mag a b bias ⟨(j 0).val, (j 0).isLt⟩ ⟨(j 1).val, (j 1).isLt⟩ ⟨(j 2).val, (j 2).isLt⟩

theorem result_ix3 (x : (⟨3, ![8, 197, 1024]⟩ : Shape).Idx → EReal) (wd : (⟨2, ![4096, 1024]⟩ : Shape).Idx → EReal)
    (mag : (⟨2, ![4096, 1]⟩ : Shape).Idx → EReal) (a : (⟨2, ![16, 1024]⟩ : Shape).Idx → EReal)
    (b : (⟨2, ![4096, 16]⟩ : Shape).Idx → EReal) (bias : (⟨1, ![4096]⟩ : Shape).Idx → EReal)
    (n : Fin 8) (s : Fin 197) (o : Fin 4096) :
    result x wd mag a b bias (ix3 n s o) = resultAt x wd mag a b bias n s o := rfl

end Cert.Dora

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Region0.lean ====
/-
  The adapted-weight region, read as one array.

  The region runs over four grid points. At point t the body sees rows 1024 t .. 1024 t + 1023 of the weight
  directions, of the magnitude column and of the second low-rank factor, and all of the first low-rank factor. It
  stores, at row p and column q of its output block,
      (directions (p, q) + (∑ k < 16, second (p, k) · first (k, q)) · scale) · magnitude (p, 0),
  the rank-16 product being a matrix product into a zero accumulator, the scale one constant spread over the block,
  the magnitude column spread across the columns, and the final narrowing the identity on the extended reals.

  Read through the blocks' positions, that entry is the adapted weight of the four arrays at row 1024 t + p,
  column q. Every point writes its block back, and row r of the output lies in the block of point r / 1024, so the
  four blocks cover the output array: after the region it is the adapted weight, index by index.
-/
import proofs.«100667_j36172214567497_1_alg».proof.Proof.Gen.KernelIdeal.Frame
import proofs.«100667_j36172214567497_1_alg».proof.Proof.Spec
import proofs.«100667_j36172214567497_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region0
open Cert.KernelIdeal Cert.KernelIdeal.Gen

/-- The left operand of the rank-16 product is read at the output's row. -/
theorem lhs_row (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
/-- The left operand of the rank-16 product is read at the contracted index along its columns. -/
theorem lhs_col (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
/-- The right operand of the rank-16 product is read at the contracted index along its rows. -/
theorem rhs_row (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
/-- The right operand of the rank-16 product is read at the output's column. -/
theorem rhs_col (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The block product into the zero accumulator, at row p and column q: the sum over the sixteen ranks of the left
    block at (p, k) times the right block at (k, q). -/
theorem product_apply (x : FVec Ideal S1024x16 .f32) (y : FVec Ideal S16x1024 .f32) (p q : Fin 1024) :
    matmul dot_S1024x16_S16x1024_S1024x1024_1_0_0_1_n_n (some .fp32) x y (constant S1024x1024 .f32 0x00000000#32) (ix2 p q)
      = ∑ k : Fin 16, x (ix2 p k) * y (ix2 k q) := by
  refine (Ideal.matmul_constant_zero_apply dot_S1024x16_S16x1024_S1024x1024_1_0_0_1_n_n (some .fp32) x y (ix2 p q)).trans ?_
  rw [← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun a => Fin.ext (by
    match a with
    | ⟨0, _⟩ => exact lhs_row _ _
    | ⟨1, _⟩ => exact (lhs_col _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun a => Fin.ext (by
    match a with
    | ⟨0, _⟩ => exact (rhs_row _ _).trans hk
    | ⟨1, _⟩ => exact rhs_col _ _)
  rw [el, er]

/-- The magnitude column broadcast across the columns, at (p, q): the column's entry in row p. -/
theorem magnitude_broadcast_apply (v : FVec Ideal S1024x1 .f32) (p q : Fin 1024) :
    broadcastTo S1024x1024 v broadcasts_S1024x1_S1024x1024 (ix2 p q) = v (ix2 p (0 : Fin 1)) := by
  refine broadcastTo_apply _ broadcasts_S1024x1_S1024x1024 (ix2 p q) (ix2 p (0 : Fin 1)) fun ax => ?_
  match ax with
  | ⟨0, _⟩ =>
    show p.val = if (1024 : Nat) = 1 then 0 else p.val
    rw [if_neg (by decide)]
  | ⟨1, _⟩ => rfl

/-- The body's stored value at row p and column q of the block: the direction block plus the scaled rank-16
    product, times the magnitude of the row. -/
theorem payload_apply (xB : FVec Ideal S1024x16 .f32) (xA : FVec Ideal S16x1024 .f32) (xW : FVec Ideal S1024x1024 .f32)
    (xM : FVec Ideal S1024x1 .f32) (p q : Fin 1024) :
    k0_pay1 (F := Ideal) xB xA xW xM (ix2 p q)
      = (xW (ix2 p q) + (∑ k : Fin 16, xB (ix2 p k) * xA (ix2 k q)) * Cert.Dora.scale) * xM (ix2 p (0 : Fin 1)) := by
  unfold k0_pay1
  show (xW (ix2 p q) + matmul dot_S1024x16_S16x1024_S1024x1024_1_0_0_1_n_n (some .fp32) xB xA (constant (F := Ideal) S1024x1024 .f32 0x00000000#32) (ix2 p q)
        * Cert.Dora.scale) * broadcastTo S1024x1024 xM broadcasts_S1024x1_S1024x1024 (ix2 p q) = _
  rw [product_apply xB xA p q, magnitude_broadcast_apply xM p q]

/-- The zero offset pair is the constant zero offset. -/
theorem zero_offsets : (![0, 0] : Fin 2 → Nat) = fun _ => 0 := funext fun a => by fin_cases a <;> rfl

/-- The block indices of the five windows at a grid point: the direction, magnitude, second-factor and output
    blocks are the point's row block, and the first factor is always its one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The direction block at point t, at (p, q): the direction array at row 1024 t + p, column q. -/
theorem directions_block (c : Dev nD) (t : Fin cfg0.N) (p q : Fin 1024) (r : Fin 4096) (hr : r.val = 1024 * t.val + p.val) :
    (iblk0 (F := Ideal) V c 0 t : Vec Ideal S1024x1024 .f32) (ix2 p q)
      = (V c main_arg1 : S4096x1024.Idx → Elt Ideal .f32) (ix2 r q) := by
  obtain ⟨e0, e1, -⟩ := block_indices t
  unfold iblk0
  rw [View.read_apply]
  show V c main_arg1 _ = V c main_arg1 _
  congr 1
  funext a
  apply Fin.ext
  match a with
  | ⟨0, _⟩ => show win0_0.index t (0 : Fin 2) * 1024 + 1 * p.val = r.val; omega
  | ⟨1, _⟩ => show win0_0.index t (1 : Fin 2) * 1024 + 1 * q.val = q.val; omega

/-- The magnitude block at point t, at row p: the magnitude array at row 1024 t + p. -/
theorem magnitude_block (c : Dev nD) (t : Fin cfg0.N) (p : Fin 1024) (z : Fin 1) (r : Fin 4096) (hr : r.val = 1024 * t.val + p.val) :
    (iblk0 (F := Ideal) V c 1 t : Vec Ideal S1024x1 .f32) (ix2 p z)
      = (V c main_arg2 : S4096x1.Idx → Elt Ideal .f32) (ix2 r z) := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t (0 : Fin 2) * 1024 + 1 * p.val = r.val; omega
  | ⟨1, _⟩ => show win0_1.index t (1 : Fin 2) * 1 + 1 * z.val = z.val; omega

/-- The first factor's block at any point is the whole first factor. -/
theorem first_factor_block (c : Dev nD) (t : Fin cfg0.N) (k : Fin 16) (q : Fin 1024) :
    (iblk0 (F := Ideal) V c 2 t : Vec Ideal S16x1024 .f32) (ix2 k q)
      = (V c main_arg3 : S16x1024.Idx → Elt Ideal .f32) (ix2 k q) := by
  obtain ⟨-, -, -, -, e0, e1, -⟩ := block_indices t
  unfold iblk0
  rw [View.read_apply]
  show V c main_arg3 _ = V c main_arg3 _
  congr 1
  funext a
  apply Fin.ext
  match a with
  | ⟨0, _⟩ => show win0_2.index t (0 : Fin 2) * 16 + 1 * k.val = k.val; omega
  | ⟨1, _⟩ => show win0_2.index t (1 : Fin 2) * 1024 + 1 * q.val = q.val; omega

/-- The second factor's block at point t, at (p, k): the second factor at row 1024 t + p, rank k. -/
theorem second_factor_block (c : Dev nD) (t : Fin cfg0.N) (p : Fin 1024) (k : Fin 16) (r : Fin 4096) (hr : r.val = 1024 * t.val + p.val) :
    (iblk0 (F := Ideal) V c 3 t : Vec Ideal S1024x16 .f32) (ix2 p k)
      = (V c main_arg4 : S4096x16.Idx → Elt Ideal .f32) (ix2 r k) := by
  obtain ⟨-, -, -, -, -, -, e0, e1, -⟩ := block_indices t
  unfold iblk0
  rw [View.read_apply]
  show V c main_arg4 _ = V c main_arg4 _
  congr 1
  funext a
  apply Fin.ext
  match a with
  | ⟨0, _⟩ => show win0_3.index t (0 : Fin 2) * 1024 + 1 * p.val = r.val; omega
  | ⟨1, _⟩ => show win0_3.index t (1 : Fin 2) * 16 + 1 * k.val = k.val; omega

/-- The output block's entry (p, q) at point t sits at row 1024 t + p, column q of the output array. -/
theorem output_block_index (t : Fin cfg0.N) (p q : Fin 1024) (r : Fin 4096) (hr : r.val = 1024 * t.val + p.val) :
    (((cfg0.win 4).blk t).view.emb (ix2 p q) : S4096x1024.Idx) = ix2 r q := by
  obtain ⟨-, -, -, -, -, -, -, -, e0, e1⟩ := block_indices t
  funext a
  apply Fin.ext
  match a with
  | ⟨0, _⟩ => show win0_4.index t (0 : Fin 2) * 1024 + 1 * p.val = r.val; omega
  | ⟨1, _⟩ => show win0_4.index t (1 : Fin 2) * 1024 + 1 * q.val = q.val; omega

/-- What point t writes back is block t of the adapted weight of the four input arrays. -/
theorem written_back (c : Dev nD) (t : Fin cfg0.N) :
    (dat0 (F := Ideal) V c).flushed 4 t = ((cfg0.win 4).blk t).view.read (Elt Ideal)
      (Cert.Dora.adapted (V c main_arg1) (V c main_arg2) (V c main_arg3) (V c main_arg4)) := by
  show (cfg0.win 4).cut (grid0.coords t) ((dat0 (F := Ideal) V c).after 4 t) = _
  rw [after0_4]
  unfold out0_4
  rw [View.canon_unit_zero zero_offsets]
  simp only [View.ld_unit_zero (S := S1024x16) zero_offsets, View.ld_unit_zero (S := S16x1024) zero_offsets,
    View.ld_unit_zero (S := S1024x1024) zero_offsets, View.ld_unit_zero (S := S1024x1) zero_offsets]
  funext j
  obtain ⟨p, q, rfl⟩ : ∃ (p : Fin 1024) (q : Fin 1024), j = ix2 p q := ⟨j 0, j 1, eq_ix2 j⟩
  have ht : t.val < 4 := Nat.lt_of_lt_of_eq t.isLt N_0
  have hp : p.val < 1024 := p.isLt
  show k0_pay1 (F := Ideal) (iblk0 V c 3 t) (iblk0 V c 2 t) (iblk0 V c 0 t) (iblk0 V c 1 t) (ix2 p q)
    = Cert.Dora.adapted (V c main_arg1) (V c main_arg2) (V c main_arg3) (V c main_arg4) (((cfg0.win 4).blk t).view.emb (ix2 p q))
  rw [output_block_index t p q ⟨1024 * t.val + p.val, by omega⟩ rfl, Cert.Dora.adapted_ix2]
  refine (payload_apply (iblk0 V c 3 t) (iblk0 V c 2 t) (iblk0 V c 0 t) (iblk0 V c 1 t) p q).trans ?_
  unfold Cert.Dora.adaptedAt
  rw [directions_block V c t p q ⟨1024 * t.val + p.val, by omega⟩ rfl,
    magnitude_block V c t p (0 : Fin 1) ⟨1024 * t.val + p.val, by omega⟩ rfl]
  congr 2
  congr 1
  refine Finset.sum_congr rfl fun k _ => ?_
  rw [second_factor_block V c t p k ⟨1024 * t.val + p.val, by omega⟩ rfl, first_factor_block V c t k q]

/-- An index of the output array is in point t's block iff each coordinate is in the block's range on its axis. -/
theorem mem_block (t : Fin cfg0.N) (i : S4096x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- Every index of the output array lies in the block of the point given by its row divided by 1024. -/
theorem covered (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  refine ⟨⟨(i 0).val / 1024, by rw [show cfg0.N = 4 from N_0]; omega⟩, flush0_4 _, ?_⟩
  rw [mem_block]
  obtain ⟨-, -, -, -, -, -, -, -, e0, e1⟩ := block_indices ⟨(i 0).val / 1024, by rw [show cfg0.N = 4 from N_0]; omega⟩
  intro a
  match a with
  | ⟨0, _⟩ =>
    show win0_4.index _ (0 : Fin 2) * 1024 ≤ (i 0).val ∧ (i 0).val < win0_4.index _ (0 : Fin 2) * 1024 + 1024
    rw [e0]; show (i 0).val / 1024 * 1024 ≤ (i 0).val ∧ (i 0).val < (i 0).val / 1024 * 1024 + 1024; omega
  | ⟨1, _⟩ =>
    show win0_4.index _ (1 : Fin 2) * 1024 ≤ (i 1).val ∧ (i 1).val < win0_4.index _ (1 : Fin 2) * 1024 + 1024
    rw [e1]; omega

/-- After the four write-backs the adapted-weight array holds the adapted weight of the region's four input arrays. -/
theorem arr (V : (c : Dev nD) → (b : Ref sig .tc) → Buf (Elt Ideal) ((c : Thread nD τ).loc b)) (c : Dev nD) :
    (dat0 (F := Ideal) V c).arrAt 4 cfg0.N
      = Cert.Dora.adapted (V c main_arg1) (V c main_arg2) (V c main_arg3) (V c main_arg4) := by
  exact (dat0 (F := Ideal) V c).arrAt_eq_of_cover 4
    (Cert.Dora.adapted (V c main_arg1) (V c main_arg2) (V c main_arg3) (V c main_arg4))
    (fun t _ => written_back V c t) covered

end Cert.KernelIdeal.Region0
end
-- ==== Proof.Region1.lean ====
/-
  Region 1, the linear layer's kernel, read as one array.

  The kernel runs on a grid of four points. At point t it holds the whole [1576, 1024] array of activations, rows
  1024 t … 1024 t + 1023 of the [4096, 1024] weight, and columns 1024 t … 1024 t + 1023 of the [1, 4096] bias row,
  and writes columns 1024 t … 1024 t + 1023 of the [1576, 4096] output. Its body contracts the activations'
  block with the weight's block, both along their second axis, into a zero accumulator and adds the bias block
  broadcast down the rows; over the extended reals the format changes are the identity, so at block index (p, q)
  it leaves  ∑ k, x (p, k) · w (1024 t + q, k)  +  b (0, 1024 t + q),  the linear layer at row p, column 1024 t + q.
  Every column o of the output lies in the block of the point o / 1024 and every point writes its block back, so
  after the four write-backs the output array is the linear layer of the three input arrays.
-/
import proofs.«100667_j36172214567497_1_alg».proof.Proof.Gen.KernelIdeal.Frame
import proofs.«100667_j36172214567497_1_alg».proof.Proof.Spec
import proofs.«100667_j36172214567497_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region1
open Cert.KernelIdeal Cert.KernelIdeal.Gen

/-- The left operand of the contraction is read at the output's row, -/
theorem lhs_axis0 (i : S1576x1024.Idx) (q : dot_S1576x1024_S1024x1024_S1576x1024_1_1_0_0_n_n.contr.Idx) :
    (dot_S1576x1024_S1024x1024_S1576x1024_1_1_0_0_n_n.lhsIdx i q 0).val = (i 0).val := by
  unfold DotDims.lhsIdx
  rw [dif_neg (show ¬(0 : Fin S1576x1024.rank) ∈ dot_S1576x1024_S1024x1024_S1576x1024_1_1_0_0_n_n.lhsBatch by decide), dif_pos (show (0 : Fin S1576x1024.rank) ∈ dot_S1576x1024_S1024x1024_S1576x1024_1_1_0_0_n_n.lhsNonContracting by decide)]
  rfl
/-- and at the summation index along its second axis. -/
theorem lhs_axis1 (i : S1576x1024.Idx) (q : dot_S1576x1024_S1024x1024_S1576x1024_1_1_0_0_n_n.contr.Idx) :
    (dot_S1576x1024_S1024x1024_S1576x1024_1_1_0_0_n_n.lhsIdx i q 1).val = (q ⟨0, by decide⟩).val :=
  dot_S1576x1024_S1024x1024_S1576x1024_1_1_0_0_n_n.lhsIdx_val_of_single rfl i q
/-- The right operand is read at the output's COLUMN along its first axis (it enters transposed), -/
theorem rhs_axis0 (i : S1576x1024.Idx) (q : dot_S1576x1024_S1024x1024_S1576x1024_1_1_0_0_n_n.contr.Idx) :
    (dot_S1576x1024_S1024x1024_S1576x1024_1_1_0_0_n_n.rhsIdx i q 0).val = (i 1).val := by
  unfold DotDims.rhsIdx
  rw [dif_neg (show ¬(0 : Fin S1024x1024.rank) ∈ dot_S1576x1024_S1024x1024_S1576x1024_1_1_0_0_n_n.rhsBatch by decide), dif_pos (show (0 : Fin S1024x1024.rank) ∈ dot_S1576x1024_S1024x1024_S1576x1024_1_1_0_0_n_n.rhsNonContracting by decide)]
  rfl
/-- and at the summation index along its second axis. -/
theorem rhs_axis1 (i : S1576x1024.Idx) (q : dot_S1576x1024_S1024x1024_S1576x1024_1_1_0_0_n_n.contr.Idx) :
    (dot_S1576x1024_S1024x1024_S1576x1024_1_1_0_0_n_n.rhsIdx i q 1).val = (q ⟨0, by decide⟩).val :=
  dot_S1576x1024_S1024x1024_S1576x1024_1_1_0_0_n_n.rhsIdx_val_of_single rfl i q

/-- The product into a zero accumulator, both operands contracted along their second axis: entry (p, q) is the
    sum over k of the left operand at (p, k) times the right operand at (q, k). -/
theorem contraction_apply (a : FVec Ideal S1576x1024 .bf16) (b : FVec Ideal S1024x1024 .bf16) (p : Fin 1576) (q : Fin 1024) :
    matmul dot_S1576x1024_S1024x1024_S1576x1024_1_1_0_0_n_n none a b (constant (F := Ideal) S1576x1024 .f32 0x00000000#32) (ix2 p q)
      = ∑ k : Fin 1024, a (ix2 p k) * b (ix2 q k) := by
  refine (Ideal.matmul_constant_zero_apply dot_S1576x1024_S1024x1024_S1576x1024_1_1_0_0_n_n none a b (ix2 p q)).trans ?_
  rw [← Equiv.sum_comp (ValueIdx.contrEquiv1 dot_S1576x1024_S1024x1024_S1576x1024_1_1_0_0_n_n 1024 rfl rfl).symm]
  refine Finset.sum_congr rfl fun k _ => ?_
  have hk := ValueIdx.contrEquiv1_symm_val dot_S1576x1024_S1024x1024_S1576x1024_1_1_0_0_n_n 1024 rfl rfl k
  have el : dot_S1576x1024_S1024x1024_S1576x1024_1_1_0_0_n_n.lhsIdx (ix2 p q) ((ValueIdx.contrEquiv1 dot_S1576x1024_S1024x1024_S1576x1024_1_1_0_0_n_n 1024 rfl rfl).symm k) = ix2 p k := funext fun ax => Fin.ext (by
    match ax with
    | ⟨0, _⟩ => exact lhs_axis0 _ _
    | ⟨1, _⟩ => exact (lhs_axis1 _ _).trans hk)
  have er : dot_S1576x1024_S1024x1024_S1576x1024_1_1_0_0_n_n.rhsIdx (ix2 p q) ((ValueIdx.contrEquiv1 dot_S1576x1024_S1024x1024_S1576x1024_1_1_0_0_n_n 1024 rfl rfl).symm k) = ix2 q k := funext fun ax => Fin.ext (by
    match ax with
    | ⟨0, _⟩ => exact rhs_axis0 _ _
    | ⟨1, _⟩ => exact (rhs_axis1 _ _).trans hk)
  rw [el, er]

/-- The body's payload at block index (p, q): the row p of the activations against the row q of the weight block,
    plus the bias block's entry q. -/
theorem payload_apply (x0 : Vec Ideal S1576x1024 .f32) (x1 : Vec Ideal S1024x1024 .bf16) (x2 : Vec Ideal S1x1024 .f32)
    (p : Fin 1576) (q : Fin 1024) :
    k1_pay1 (F := Ideal) x0 x1 x2 (ix2 p q) = (∑ k : Fin 1024, x0 (ix2 p k) * x1 (ix2 q k)) + x2 (ix2 (0 : Fin 1) q) := by
  unfold k1_pay1
  refine (addf_apply _ _ _).trans ?_
  refine congrArg₂ (· + ·) ?_ (Cert.LibKeepdims.row_broadcast_apply x2 _ _ p q)
  rw [shapeCast_self, shapeCast_self]
  exact contraction_apply _ _ p q

/-- The zero offsets of the body's whole-buffer accesses. -/
theorem zero_offsets : (![0, 0] : Fin 2 → Nat) = fun _ => 0 :=
  funext fun a => by match a with | ⟨0, _⟩ => rfl | ⟨1, _⟩ => rfl

/-- The grid has four points; at point t the activations' window stays at block (0, 0), the weight's is at block
    (t, 0), the bias row's and the output's at block (0, t). -/
theorem idx_facts : ∀ t : Fin cfg1.N, t.val < 4
    ∧ win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

section Blocks
variable (V : (c : Dev nD) → (b : Ref sig .tc) → Buf (Elt Ideal) ((c : Thread nD τ).loc b)) (c : Dev nD)

/-- The activations' block at any point is the whole array. -/
theorem block0_apply (t : Fin cfg1.N) (p : Fin 1576) (k : Fin 1024) :
    (iblk1 V c 0 t : Vec Ideal S1576x1024 .f32) (ix2 p k) = (V c main_v0 : S1576x1024.Idx → EReal) (ix2 p k) := by
  obtain ⟨-, e0, e1, -⟩ := idx_facts t
  unfold iblk1
  rw [View.read_apply]
  show V c main_v0 _ = V c main_v0 _
  congr 1
  funext a
  apply Fin.ext
  match a with
  | ⟨0, _⟩ => show win1_0.index t (0 : Fin 2) * 1576 + 1 * p.val = p.val; rw [e0]; omega
  | ⟨1, _⟩ => show win1_0.index t (1 : Fin 2) * 1024 + 1 * k.val = k.val; rw [e1]; omega

/-- The weight's block at point t is its rows 1024 t … 1024 t + 1023. -/
theorem block1_apply (t : Fin cfg1.N) (q : Fin 1024) (k : Fin 1024) (o : Fin 4096) (ho : o.val = 1024 * t.val + q.val) :
    (iblk1 V c 1 t : Vec Ideal S1024x1024 .bf16) (ix2 q k) = (V c main_v1 : S4096x1024.Idx → EReal) (ix2 o k) := by
  obtain ⟨-, -, -, e0, e1, -⟩ := idx_facts t
  unfold iblk1
  rw [View.read_apply]
  show V c main_v1 _ = V c main_v1 _
  congr 1
  funext a
  apply Fin.ext
  match a with
  | ⟨0, _⟩ => show win1_1.index t (0 : Fin 2) * 1024 + 1 * q.val = o.val; rw [e0, ho]; omega
  | ⟨1, _⟩ => show win1_1.index t (1 : Fin 2) * 1024 + 1 * k.val = k.val; rw [e1]; omega

/-- The bias row's block at point t is its columns 1024 t … 1024 t + 1023. -/
theorem block2_apply (t : Fin cfg1.N) (q : Fin 1024) (o : Fin 4096) (ho : o.val = 1024 * t.val + q.val) :
    (iblk1 V c 2 t : Vec Ideal S1x1024 .f32) (ix2 (0 : Fin 1) q) = (V c main_v2 : S1x4096.Idx → EReal) (ix2 (0 : Fin 1) o) := by
  obtain ⟨-, -, -, -, -, e0, e1, -⟩ := idx_facts t
  unfold iblk1
  rw [View.read_apply]
  show V c main_v2 _ = V c main_v2 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * q.val = o.val; rw [e1, ho]; omega

/-- The output's block at point t sits at columns 1024 t … 1024 t + 1023 of the output array. -/
theorem block3_emb (t : Fin cfg1.N) (p : Fin 1576) (q : Fin 1024) (o : Fin 4096) (ho : o.val = 1024 * t.val + q.val) :
    ((cfg1.win 3).blk t).view.emb (ix2 p q : S1576x1024.Idx) = (ix2 p o : S1576x4096.Idx) := by
  obtain ⟨-, -, -, -, -, -, -, e0, e1⟩ := idx_facts t
  funext a
  apply Fin.ext
  match a with
  | ⟨0, _⟩ => show win1_3.index t (0 : Fin 2) * 1576 + 1 * p.val = p.val; rw [e0]; omega
  | ⟨1, _⟩ => show win1_3.index t (1 : Fin 2) * 1024 + 1 * q.val = o.val; rw [e1, ho]; omega

end Blocks

section Array
variable (V : (c : Dev nD) → (b : Ref sig .tc) → Buf (Elt Ideal) ((c : Thread nD τ).loc b)) (c : Dev nD)

/-- What point t writes back is block t of the linear layer of the three input arrays: at block index (p, q) the
    payload is the row p of the activations against the weight's row 1024 t + q plus the bias at 1024 t + q, which
    is the linear layer at row p, column 1024 t + q. -/
theorem flushed_eq (t : Fin cfg1.N) :
    (dat1 (F := Ideal) V c).flushed 3 t
      = ((cfg1.win 3).blk t).view.read (Elt Ideal) (Cert.Dora.linear (V c main_v0) (V c main_v1) (V c main_v2)) := by
  show (cfg1.win 3).cut (grid1.coords t) ((dat1 (F := Ideal) V c).after 3 t) = _
  rw [after1_3]
  unfold out1_3
  rw [View.canon_unit_zero zero_offsets]
  simp only [View.ld_unit_zero (S := S1576x1024) zero_offsets, View.ld_unit_zero (S := S1024x1024) zero_offsets,
    View.ld_unit_zero (S := S1x1024) zero_offsets]
  refine funext fun (j : S1576x1024.Idx) => ?_
  obtain ⟨p, q, rfl⟩ : ∃ (p : Fin 1576) (q : Fin 1024), j = ix2 p q := ⟨j 0, j 1, eq_ix2 j⟩
  have ht : t.val < 4 := (idx_facts t).1
  have ho : (⟨1024 * t.val + q.val, by omega⟩ : Fin 4096).val = 1024 * t.val + q.val := rfl
  rw [View.read_apply, block3_emb t p q ⟨1024 * t.val + q.val, by omega⟩ ho, Cert.Dora.linear_ix2]
  refine (payload_apply (iblk1 V c 0 t) (iblk1 V c 1 t) (iblk1 V c 2 t) p q).trans ?_
  unfold Cert.Dora.linearAt
  refine congrArg₂ (· + ·) (Finset.sum_congr rfl fun k _ => ?_) (block2_apply V c t q _ ho)
  rw [block0_apply V c t p k, block1_apply V c t q k _ ho]

/-- An index of the output array is in point t's block iff each coordinate is in the block's range on its axis. -/
theorem mem_blk (t : Fin cfg1.N) (i : S1576x4096.Idx) :
    i ∈ ((cfg1.win 3).blk t).view.set
      ↔ ∀ a : Fin 2, win1_3.index t a * S1576x1024.size a ≤ (i a).val ∧ (i a).val < win1_3.index t a * S1576x1024.size a + S1576x1024.size a := by
  show i ∈ ((View.whole main_v3).slice (win1_3.rect t)).set ↔ _
  rw [View.set_slice_whole, Rect.mem_set_unit]
  exact Iff.rfl

/-- Column o of the output array lies in the block of the point o / 1024, and every point writes back. -/
theorem cover (i : S1576x4096.Idx) :
    ∃ t : Fin cfg1.N, (cfg1.win 3).flush t = true ∧ i ∈ ((cfg1.win 3).blk t).view.set := by
  have hi0 : (i 0).val < 1576 := (i 0).isLt
  have hi1 : (i 1).val < 4096 := (i 1).isLt
  have hN : cfg1.N = 4 := N_1
  refine ⟨⟨(i 1).val / 1024, by rw [hN]; omega⟩, flush1_3 _, ?_⟩
  rw [mem_blk]
  obtain ⟨-, -, -, -, -, -, -, e0, e1⟩ := idx_facts ⟨(i 1).val / 1024, by rw [hN]; omega⟩
  intro a
  match a with
  | ⟨0, _⟩ =>
    show win1_3.index _ (0 : Fin 2) * 1576 ≤ (i 0).val ∧ (i 0).val < win1_3.index _ (0 : Fin 2) * 1576 + 1576
    rw [e0]; omega
  | ⟨1, _⟩ =>
    show win1_3.index _ (1 : Fin 2) * 1024 ≤ (i 1).val ∧ (i 1).val < win1_3.index _ (1 : Fin 2) * 1024 + 1024
    rw [e1]
    show (i 1).val / 1024 * 1024 ≤ (i 1).val ∧ (i 1).val < (i 1).val / 1024 * 1024 + 1024
    omega

end Array

/-- After the four write-backs the output array holds the linear layer of the region's three input arrays. -/
theorem arr (V : (c : Dev nD) → (b : Ref sig .tc) → Buf (Elt Ideal) ((c : Thread nD τ).loc b)) (c : Dev nD) :
    (dat1 (F := Ideal) V c).arrAt 3 cfg1.N
      = Cert.Dora.linear (V c main_v0) (V c main_v1) (V c main_v2) :=
  (dat1 (F := Ideal) V c).arrAt_eq_of_cover 3 (Cert.Dora.linear (V c main_v0) (V c main_v1) (V c main_v2))
    (fun t _ => flushed_eq V c t) cover

end Cert.KernelIdeal.Region1
end
-- ==== Proof.Fold.lean ====
/-
  The result buffer at the end of the kernel's run, read back through the run's boundaries to the launch memory.
  The last host operation lays the second kernel's [1576, 4096] output out as [8, 197, 4096]; that output is the linear
  layer of the second kernel's three input arrays as it finds them: the activations laid out as [1576, 1024] by the
  first host operation, the adapted weight the first kernel left (of the four arguments it reads, untouched since
  launch), and the bias laid out as a row by the host operation between the kernels.
-/
import proofs.«100667_j36172214567497_1_alg».proof.Proof.Gen.KernelIdeal.Frame
import proofs.«100667_j36172214567497_1_alg».proof.Proof.Spec
import proofs.«100667_j36172214567497_1_alg».proof.Proof.Region0
import proofs.«100667_j36172214567497_1_alg».proof.Proof.Region1
import Idealize.ShloMosaic.Lib.StableHlo.Run

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first kernel finds the weight directions as launched. -/
theorem V1_arg1 (c : Dev nD) : V1 m ρ c main_arg1 = m ((c : Thread nD τ).loc main_arg1) := by
  show StableHlo.after hostOps0 (W0 m ρ c) (Proc.devRef .tc main_arg1) = _
  after_results
/-- The first kernel finds the magnitudes as launched. -/
theorem V1_arg2 (c : Dev nD) : V1 m ρ c main_arg2 = m ((c : Thread nD τ).loc main_arg2) := by
  show StableHlo.after hostOps0 (W0 m ρ c) (Proc.devRef .tc main_arg2) = _
  after_results
/-- The first kernel finds the low-rank factor A as launched. -/
theorem V1_arg3 (c : Dev nD) : V1 m ρ c main_arg3 = m ((c : Thread nD τ).loc main_arg3) := by
  show StableHlo.after hostOps0 (W0 m ρ c) (Proc.devRef .tc main_arg3) = _
  after_results
/-- The first kernel finds the low-rank factor B as launched. -/
theorem V1_arg4 (c : Dev nD) : V1 m ρ c main_arg4 = m ((c : Thread nD τ).loc main_arg4) := by
  show StableHlo.after hostOps0 (W0 m ρ c) (Proc.devRef .tc main_arg4) = _
  after_results

/-- The second kernel finds the activations laid out as [1576, 1024]: the first host operation wrote them, and neither
    the first kernel nor the host operation after it touches that buffer. -/
theorem V3_v0 (c : Dev nD) :
    V3 m ρ c main_v0 = shapeCast S1576x1024 (m ((c : Thread nD τ).loc main_arg0)) shapeCasts_S8x197x1024_S1576x1024 := by
  show StableHlo.after hostOps1 (W2 m ρ c) (Proc.devRef .tc main_v0) = _
  after_results
  rw [W2_of_ne m ρ c main_v0 (by decide)]
  show StableHlo.after hostOps0 (W0 m ρ c) (Proc.devRef .tc main_v0) = _
  after_results
  rfl

/-- The second kernel finds the adapted weight the first kernel left. -/
theorem V3_v1 (c : Dev nD) :
    V3 m ρ c main_v1 = Cert.Dora.adapted (m ((c : Thread nD τ).loc main_arg1)) (m ((c : Thread nD τ).loc main_arg2))
      (m ((c : Thread nD τ).loc main_arg3)) (m ((c : Thread nD τ).loc main_arg4)) := by
  show StableHlo.after hostOps1 (W2 m ρ c) (Proc.devRef .tc main_v1) = _
  after_results
  refine (W2_arr m ρ c 4).trans ?_
  rw [Cert.KernelIdeal.Region0.arr (V1 m ρ) c, V1_arg1, V1_arg2, V1_arg3, V1_arg4]

/-- The second kernel finds the bias laid out as a row by the host operation before it, from the bias as launched. -/
theorem V3_v2 (c : Dev nD) :
    V3 m ρ c main_v2 = shapeCast S1x4096 (m ((c : Thread nD τ).loc main_arg5)) shapeCasts_S4096_S1x4096 := by
  show StableHlo.after hostOps1 (W2 m ρ c) (Proc.devRef .tc main_v2) = _
  after_results
  rw [W2_of_ne m ρ c main_arg5 (by decide)]
  show (fun i => shapeCast S1x4096 (StableHlo.after hostOps0 (W0 m ρ c) (Proc.devRef .tc main_arg5)) shapeCasts_S4096_S1x4096 i) = _
  after_results

/-- The result buffer after the run, as a term of the launch memory. -/
theorem result_term (c : Dev nD) :
    W5 m ρ c (Proc.devRef .tc main_v4)
      = shapeCast S8x197x4096 (Cert.Dora.linear
          (shapeCast S1576x1024 (m ((c : Thread nD τ).loc main_arg0)) shapeCasts_S8x197x1024_S1576x1024)
          (Cert.Dora.adapted (m ((c : Thread nD τ).loc main_arg1)) (m ((c : Thread nD τ).loc main_arg2))
            (m ((c : Thread nD τ).loc main_arg3)) (m ((c : Thread nD τ).loc main_arg4)))
          (shapeCast S1x4096 (m ((c : Thread nD τ).loc main_arg5)) shapeCasts_S4096_S1x4096))
        shapeCasts_S1576x4096_S8x197x4096 := by
  show StableHlo.after hostOps2 (W4 m ρ c) (Proc.devRef .tc main_v4) = _
  after_results
  rw [show W4 m ρ c (Proc.devRef .tc main_v3) = (dat1 (V3 m ρ) c).arrAt 3 cfg1.N from W4_arr m ρ c 3,
    Cert.KernelIdeal.Region1.arr (V3 m ρ) c, V3_v0, V3_v1, V3_v2]
  rfl

end Cert.KernelIdeal.Fold

end
-- ==== Proof.KernelTerm.lean ====
/-
  The kernel's result term is the result function. Flattening the batch sends (n, s) to row 197 n + s, the kernel's
  linear layer reads that row of the flattened activations, which is x (n, s, ·), and the bias row at column o, which
  is bias o; laying the [1576, 4096] output out as [8, 197, 4096] reads row 197 n + s back at (n, s).
-/
import proofs.«100667_j36172214567497_1_alg».proof.Proof.Spec
import Idealize.ShloMosaic.Lib.Pipeline.Value
import Idealize.ShloMosaic.Lib.ValueLayout

noncomputable section

namespace Cert.Dora

open Idealize.ShloMosaic Idealize.ShloMosaic.ValueIdx

/-- The three changes of layout around the two kernels, read at an index. -/
theorem layout_eq (x : (⟨3, ![8, 197, 1024]⟩ : Shape).Idx → EReal) (wd : (⟨2, ![4096, 1024]⟩ : Shape).Idx → EReal)
    (mag : (⟨2, ![4096, 1]⟩ : Shape).Idx → EReal) (a : (⟨2, ![16, 1024]⟩ : Shape).Idx → EReal)
    (b : (⟨2, ![4096, 16]⟩ : Shape).Idx → EReal) (bias : (⟨1, ![4096]⟩ : Shape).Idx → EReal)
    (h0 : (⟨3, ![8, 197, 1024]⟩ : Shape).ShapeCasts ⟨2, ![1576, 1024]⟩)
    (h1 : (⟨1, ![4096]⟩ : Shape).ShapeCasts ⟨2, ![1, 4096]⟩)
    (h2 : (⟨2, ![1576, 4096]⟩ : Shape).ShapeCasts ⟨3, ![8, 197, 4096]⟩) :
    shapeCast ⟨3, ![8, 197, 4096]⟩
        (linear (shapeCast ⟨2, ![1576, 1024]⟩ x h0) (adapted wd mag a b) (shapeCast ⟨2, ![1, 4096]⟩ bias h1)) h2
      = result x wd mag a b bias := by
  funext j
  obtain ⟨n, s, o, rfl⟩ : ∃ (n : Fin 8) (s : Fin 197) (o : Fin 4096), j = ix3 n s o := ⟨j 0, j 1, j 2, eq_ix3 j⟩
  have hr : n.val * 197 + s.val < 1576 := by have := n.isLt; have := s.isLt; omega
  refine (shapeCast_apply _ h2 (ix3 n s o) (ix2 (⟨n.val * 197 + s.val, hr⟩ : Fin 1576) o) ?_).trans ?_
  · rw [Shape.rowMajor_val_two, Shape.rowMajor_val_three]
    rfl
  rw [linear_ix2, result_ix3]
  unfold linearAt resultAt
  refine congrArg₂ (· + ·) (Finset.sum_congr rfl fun k _ => ?_) (shapeCast_a_1a_apply bias h1 (0 : Fin 1) o)
  rw [adapted_ix2]
  refine congrArg (· * adaptedAt wd mag a b o k) (shapeCast_apply x h0 _ (ix3 n s k) ?_)
  rw [Shape.rowMajor_val_three, Shape.rowMajor_val_two]
  rfl

end Cert.Dora

end
-- ==== Proof.RefValue.lean ====
/-
  The reference, read one operation at a time, is the result function of the six arguments: its adapted weight at
  (o, i) is (directions + (B · A) · scale) · magnitude with the rank-16 product a sum over k, and its einsum over the
  input features plus the broadcast bias is the sum over k of x (n, s, k) times the adapted weight at (o, k), plus
  bias o. Only the operand indices of the two products and of the broadcasts have to be named.
-/
import proofs.«100667_j36172214567497_1_alg».proof.Proof.Gen.ReferenceIdeal.Read
import proofs.«100667_j36172214567497_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The rank-16 product's left operand index at output (o, i) and k: row o, column k of B. -/
theorem lidx_v0 (o : Fin 4096) (i : Fin 1024) (k : Fin 16) : lidx_main_v0 (ix2 o i) k = ix2 o k :=
  funext fun a => Fin.ext (by match a with | ⟨0, _⟩ => rfl | ⟨1, _⟩ => rfl)

/-- Its right operand index: row k, column i of A. -/
theorem ridx_v0 (o : Fin 4096) (i : Fin 1024) (k : Fin 16) : ridx_main_v0 (ix2 o i) k = ix2 k i :=
  funext fun a => Fin.ext (by match a with | ⟨0, _⟩ => rfl | ⟨1, _⟩ => rfl)

/-- The magnitude column broadcast across the columns reads row o. -/
theorem idx_v4 (o : Fin 4096) (i : Fin 1024) : idx_main_v4 (ix2 o i) = ix2 o (0 : Fin 1) :=
  funext fun a => Fin.ext (by match a with | ⟨0, _⟩ => rfl | ⟨1, _⟩ => rfl)

/-- The einsum's left operand index at output (n, s, o) and k. -/
theorem lidx_v6 (n : Fin 8) (s : Fin 197) (o : Fin 4096) (k : Fin 1024) : lidx_main_v6 (ix3 n s o) k = ix3 n s k :=
  funext fun a => Fin.ext (by match a with | ⟨0, _⟩ => rfl | ⟨1, _⟩ => rfl | ⟨2, _⟩ => rfl)

/-- Its right operand index: row o, column k of the adapted weight. -/
theorem ridx_v6 (n : Fin 8) (s : Fin 197) (o : Fin 4096) (k : Fin 1024) : ridx_main_v6 (ix3 n s o) k = ix2 o k :=
  funext fun a => Fin.ext (by match a with | ⟨0, _⟩ => rfl | ⟨1, _⟩ => rfl)

/-- The bias broadcast over batch and position reads entry o. -/
theorem idx_v78 (n : Fin 8) (s : Fin 197) (o : Fin 4096) : idx_main_v7 (idx_main_v8 (ix3 n s o)) = ix1 o :=
  funext fun a => Fin.ext (by match a with | ⟨0, _⟩ => rfl)

/-- The reference's adapted weight at (o, i). -/
theorem adapted_apply (x1 : (⟨S4096x1024, .f32⟩ : BufTy).Contents (Elt Ideal)) (x2 : (⟨S4096x1, .f32⟩ : BufTy).Contents (Elt Ideal))
    (x3 : (⟨S16x1024, .f32⟩ : BufTy).Contents (Elt Ideal)) (x4 : (⟨S4096x16, .f32⟩ : BufTy).Contents (Elt Ideal))
    (o : Fin 4096) (i : Fin 1024) :
    val_main_v5 (F := Ideal) x1 x2 x3 x4 (ix2 o i) = Cert.Dora.adaptedAt x1 x2 x3 x4 o i := by
  rw [val_main_v5_apply, val_main_v3_apply, val_main_v2_apply, val_main_v0_apply, val_main_v1_apply,
    val_main_cst_apply, val_main_v4_apply, idx_v4]
  simp only [lidx_v0, ridx_v0]
  rfl

/-- The reference's result is the result function. -/
theorem result_eq (x0 : (⟨S8x197x1024, .f32⟩ : BufTy).Contents (Elt Ideal)) (x1 : (⟨S4096x1024, .f32⟩ : BufTy).Contents (Elt Ideal))
    (x2 : (⟨S4096x1, .f32⟩ : BufTy).Contents (Elt Ideal)) (x3 : (⟨S16x1024, .f32⟩ : BufTy).Contents (Elt Ideal))
    (x4 : (⟨S4096x16, .f32⟩ : BufTy).Contents (Elt Ideal)) (x5 : (⟨S4096, .f32⟩ : BufTy).Contents (Elt Ideal)) :
    val_main_v9 (F := Ideal) x0 x1 x2 x3 x4 x5 = Cert.Dora.result x0 x1 x2 x3 x4 x5 := by
  funext j
  obtain ⟨n, s, o, rfl⟩ : ∃ (n : Fin 8) (s : Fin 197) (o : Fin 4096), j = ix3 n s o := ⟨j 0, j 1, j 2, eq_ix3 j⟩
  rw [Cert.Dora.result_ix3, val_main_v9_apply, val_main_v6_apply, val_main_v8_apply, val_main_v7_apply, idx_v78]
  simp only [lidx_v6, ridx_v6, adapted_apply]
  rfl

end Cert.ReferenceIdeal.RefValue

end
-- ==== Proof.lean ====
/-
  The five claims for the DoRA linear layer computed by two kernels against its jnp reference.

  Both idealized programs compute, at batch n, position s and output feature o, the sum over the input features k of
  x (n, s, k) times the adapted weight at (o, k), plus bias o, where the adapted weight at (o, k) is
  (directions (o, k) + (sum over the 16 ranks r of B (o, r) · A (r, k)) · scale) · magnitude o. The kernel program
  computes the adapted weight in a first kernel, row block by row block, and the linear layer in a second, column block
  by column block, between three changes of layout; the reference computes the same with two host products. The two
  sides use the operations in the same order on the same scale word, so no law of the extended reals beyond reading
  a product into a zero accumulator as a plain sum is needed, and the precondition is never opened.

  The frames of the two kernel programs are the generated ones; the reference's frame is its generated run with the
  result dropped; the idealization rewrote nothing. For the value claim the kernel's run is taken once more with the
  result buffer read, that buffer is read back through the run to the launch memory, and both sides are shown to be
  the one result function.
-/
import proofs.«100667_j36172214567497_1_alg».proof.Defs
import proofs.«100667_j36172214567497_1_alg».proof.Proof.Gen.Kernel
import proofs.«100667_j36172214567497_1_alg».proof.Proof.Gen.Kernel.Frame
import proofs.«100667_j36172214567497_1_alg».proof.Proof.Gen.KernelIdeal
import proofs.«100667_j36172214567497_1_alg».proof.Proof.Gen.KernelIdeal.Frame
import proofs.«100667_j36172214567497_1_alg».proof.Proof.Gen.ReferenceIdeal
import proofs.«100667_j36172214567497_1_alg».proof.Proof.Gen.ReferenceIdeal.Run
import proofs.«100667_j36172214567497_1_alg».proof.Proof.Gen.ReferenceIdeal.Read
import proofs.«100667_j36172214567497_1_alg».proof.Proof.Gen.Pre_finite_inputs
import proofs.«100667_j36172214567497_1_alg».proof.Proof.KernelRun
import proofs.«100667_j36172214567497_1_alg».proof.Proof.Fold
import proofs.«100667_j36172214567497_1_alg».proof.Proof.KernelTerm
import proofs.«100667_j36172214567497_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel program runs and keeps its arguments: the generated frame. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs and keeps its arguments: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both idealized programs end with the result function of the arguments in their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Dora.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.RunResult.run_result (F := Ideal) m ρ)
    exact (Cert.KernelIdeal.Fold.result_term m ρ c).trans (Cert.Dora.layout_eq _ _ _ _ _ _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v9_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
